-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S12288x2048 : Shape := ⟨2, ![12288, 2048]⟩
abbrev S12288x32 : Shape := ⟨2, ![12288, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S12288x32 : S_.BroadcastsInDim S12288x32 (![] : Fin 0 → Fin S12288x32.rank)
  reducesTo_S12288x32_S_d0_1 : S12288x32.ReducesTo [0, 1] S_

variable [Facts]

def fn {F : FTy → Type} [FloatOps F] (main_arg0 : FVec F S4x2048x4096 .f32) (main_arg1 : IVec S12288x2048 32) (main_arg2 : FVec F S12288x32 .f32) (main_arg3 : FVec F S12288x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S12288x32 .f32 := Host.absf main_arg2
  let main_cst_0 : FVec F S_ .f32 := constant S_ .f32 0x7F800000#32
  let main_v5 : FVec F S12288x32 .f32 := broadcastInDim S12288x32 ![] bcast_S_S12288x32 main_cst_0
  let main_v6 : IVec S12288x32 1 := cmpf .olt main_v4 main_v5
  let main_c_1 : IVec S_ 1 := constantI S_ 1 1#1
  let main_v7 : IVec S_ 1 := (fun x v => Host.reduce IntOp.andi x v reducesTo_S12288x32_S_d0_1 h_S_) main_v6 main_c_1
  let main_v8 : IVec S_ 1 := andi main_v3 main_v7
  let main_v9 : FVec F S12288x32 .f32 := Host.absf main_arg3
  let main_cst_2 : FVec F S_ .f32 := constant S_ .f32 0x7F800000#32
  let main_v10 : FVec F S12288x32 .f32 := broadcastInDim S12288x32 ![] bcast_S_S12288x32 main_cst_2
  let main_v11 : IVec S12288x32 1 := cmpf .olt main_v9 main_v10
  let main_c_3 : IVec S_ 1 := constantI S_ 1 1#1
  let main_v12 : IVec S_ 1 := (fun x v => Host.reduce IntOp.andi x v reducesTo_S12288x32_S_d0_1 h_S_) main_v11 main_c_3
  let main_v13 : IVec S_ 1 := andi main_v8 main_v12
  main_v13
-- ==== Kernel.lean ====
abbrev S4x2048x4096 : Shape := ⟨3, ![4, 2048, 4096]⟩
abbrev S12288x2048 : Shape := ⟨2, ![12288, 2048]⟩
abbrev S12288x32 : Shape := ⟨2, ![12288, 32]⟩
abbrev S_ : Shape := ⟨0, ![]⟩
abbrev S12288x2048x1 : Shape := ⟨3, ![12288, 2048, 1]⟩
abbrev S12288x2048x2 : Shape := ⟨3, ![12288, 2048, 2]⟩
abbrev S12288x4096 : Shape := ⟨2, ![12288, 4096]⟩
abbrev S12288x32x128 : Shape := ⟨3, ![12288, 32, 128]⟩
abbrev S12288x32x1 : Shape := ⟨3, ![12288, 32, 1]⟩
abbrev S8192x4096 : Shape := ⟨2, ![8192, 4096]⟩
abbrev S8192x12288 : Shape := ⟨2, ![8192, 12288]⟩
abbrev S2048x1024 : Shape := ⟨2, ![2048, 1024]⟩
abbrev S1536x1024 : Shape := ⟨2, ![1536, 1024]⟩
abbrev S2048x1536 : Shape := ⟨2, ![2048, 1536]⟩
abbrev S4x2048x12288 : Shape := ⟨3, ![4, 2048, 12288]⟩

abbrev nBuf : Space → Nat
  | .hbm => 31
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S12288x2048, .i32⟩
  | .hbm, ⟨2, _⟩ => ⟨S12288x32, .f32⟩
  | .hbm, ⟨3, _⟩ => ⟨S12288x32, .f32⟩
  | .hbm, ⟨4, _⟩ => ⟨S_, .i32⟩
  | .hbm, ⟨5, _⟩ => ⟨S12288x2048, .i32⟩
  | .hbm, ⟨6, _⟩ => ⟨S12288x2048, .i32⟩
  | .hbm, ⟨7, _⟩ => ⟨S_, .i32⟩
  | .hbm, ⟨8, _⟩ => ⟨S12288x2048, .i32⟩
  | .hbm, ⟨9, _⟩ => ⟨S12288x2048, .i32⟩
  | .hbm, ⟨10, _⟩ => ⟨S_, .i32⟩
  | .hbm, ⟨11, _⟩ => ⟨S12288x2048, .i32⟩
  | .hbm, ⟨12, _⟩ => ⟨S12288x2048, .i32⟩
  | .hbm, ⟨13, _⟩ => ⟨S12288x2048x1, .i32⟩
  | .hbm, ⟨14, _⟩ => ⟨S12288x2048x1, .i32⟩
  | .hbm, ⟨15, _⟩ => ⟨S12288x2048x2, .i32⟩
  | .hbm, ⟨16, _⟩ => ⟨S12288x4096, .i32⟩
  | .hbm, ⟨17, _⟩ => ⟨S12288x4096, .f32⟩
  | .hbm, ⟨18, _⟩ => ⟨S12288x32x128, .f32⟩
  | .hbm, ⟨19, _⟩ => ⟨S12288x32x1, .f32⟩
  | .hbm, ⟨20, _⟩ => ⟨S12288x32x128, .f32⟩
  | .hbm, ⟨21, _⟩ => ⟨S12288x32x128, .f32⟩
  | .hbm, ⟨22, _⟩ => ⟨S12288x32x1, .f32⟩
  | .hbm, ⟨23, _⟩ => ⟨S12288x32x128, .f32⟩
  | .hbm, ⟨24, _⟩ => ⟨S12288x32x128, .f32⟩
  | .hbm, ⟨25, _⟩ => ⟨S12288x4096, .f32⟩
  | .hbm, ⟨26, _⟩ => ⟨S12288x4096, .bf16⟩
  | .hbm, ⟨27, _⟩ => ⟨S8192x4096, .f32⟩
  | .hbm, ⟨28, _⟩ => ⟨S8192x4096, .bf16⟩
  | .hbm, ⟨29, _⟩ => ⟨S8192x12288, .f32⟩
  | .hbm, ⟨30, _⟩ => ⟨S4x2048x12288, .f32⟩
  | .local _ .vmem, ⟨0, _⟩ => ⟨S2048x1024, .bf16⟩
  | .local _ .vmem, ⟨1, _⟩ => ⟨S2048x1024, .bf16⟩
  | .local _ .vmem, ⟨2, _⟩ => ⟨S1536x1024, .bf16⟩
  | .local _ .vmem, ⟨3, _⟩ => ⟨S1536x1024, .bf16⟩
  | .local _ .vmem, ⟨4, _⟩ => ⟨S2048x1536, .f32⟩
  | .local _ .vmem, ⟨5, _⟩ => ⟨S2048x1536, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S12288x2048 : S_.BroadcastsInDim S12288x2048 (![] : Fin 0 → Fin S12288x2048.rank)
  bcast_S12288x2048_S12288x2048x1_0_1 : S12288x2048.BroadcastsInDim S12288x2048x1 (![0, 1] : Fin 2 → Fin S12288x2048x1.rank)
  concatenates_S12288x2048x1_S12288x2048x1_S12288x2048x2_d2 : Shape.Concatenates [S12288x2048x1, S12288x2048x1] S12288x2048x2 2
  shapeCasts_S12288x2048x2_S12288x4096 : S12288x2048x2.ShapeCasts S12288x4096
  shapeCasts_S12288x4096_S12288x32x128 : S12288x4096.ShapeCasts S12288x32x128
  bcast_S12288x32_S12288x32x1_0_1 : S12288x32.BroadcastsInDim S12288x32x1 (![0, 1] : Fin 2 → Fin S12288x32x1.rank)
  bcast_S12288x32x1_S12288x32x128_0_1_2 : S12288x32x1.BroadcastsInDim S12288x32x128 (![0, 1, 2] : Fin 3 → Fin S12288x32x128.rank)
  shapeCasts_S12288x32x128_S12288x4096 : S12288x32x128.ShapeCasts S12288x4096
  bitsLt_bf16_f32 : FTy.bits .bf16 < FTy.bits .f32
  shapeCasts_S4x2048x4096_S8192x4096 : S4x2048x4096.ShapeCasts S8192x4096
  inb_S2048x1536_S2048x1536_0_0 : ∀ a, (![0, 0] : Fin 2 → Nat) a + S2048x1536.size a ≤ S2048x1536.size a
  h_S2048x1536 : 0 < S2048x1536.numel
  shapeCasts_S2048x1536_S2048x1536 : S2048x1536.ShapeCasts S2048x1536
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  shapeCasts_S8192x12288_S4x2048x12288 : S8192x12288.ShapeCasts S4x2048x12288
  dot_S2048x1024_S1536x1024_S2048x1536_1_1_0_0_n_n_wf : DotDims.WF S2048x1024 S1536x1024 S2048x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x1024.size a ≤ S12288x4096.size a
  hwx0_1 : ∀ i : grid0.Coords, EltTy.bits .bf16 = 32 ∨ (Rect.block (s := S12288x4096) S1536x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1536.size a ≤ S8192x12288.size a
  hwx0_2 : ∀ i : grid0.Coords, EltTy.bits .f32 = 32 ∨ (Rect.block (s := S8192x12288) S2048x1536.size (cc0_transform_2 i) (hinb0_2 i)).WholeWords (EltTy.packing .f32)

variable [Facts₀]

def dot_S2048x1024_S1536x1024_S2048x1536_1_1_0_0_n_n : DotDims S2048x1024 S1536x1024 S2048x1536 where
  lhsContracting := [1]
  rhsContracting := [1]
  lhsNonContracting := [0]
  rhsNonContracting := [0]
  lhsBatch := []
  rhsBatch := []
  wf := dot_S2048x1024_S1536x1024_S2048x1536_1_1_0_0_n_n_wf

abbrev win0_0 : Pipeline.Window sig grid0 :=
  Pipeline.Window.ofSpec (Memref.whole main_v21) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1536x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2048x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S12288x2048 : Shape := ⟨2, ![12288, 2048]⟩
abbrev S12288x32 : Shape := ⟨2, ![12288, 32]⟩
abbrev S_ : Shape := ⟨0, ![]⟩
abbrev S12288x2048x1 : Shape := ⟨3, ![12288, 2048, 1]⟩
abbrev S12288x2048x2 : Shape := ⟨3, ![12288, 2048, 2]⟩
abbrev S12288x4096 : Shape := ⟨2, ![12288, 4096]⟩
abbrev S12288x32x128 : Shape := ⟨3, ![12288, 32, 128]⟩
abbrev S12288x32x1 : Shape := ⟨3, ![12288, 32, 1]⟩
abbrev S4x2048x12288 : Shape := ⟨3, ![4, 2048, 12288]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S12288x2048, .i32⟩
  | .hbm, ⟨2, _⟩ => ⟨S12288x32, .f32⟩
  | .hbm, ⟨3, _⟩ => ⟨S12288x32, .f32⟩
  | .hbm, ⟨4, _⟩ => ⟨S_, .i32⟩
  | .hbm, ⟨5, _⟩ => ⟨S12288x2048, .i32⟩
  | .hbm, ⟨6, _⟩ => ⟨S12288x2048, .i32⟩
  | .hbm, ⟨7, _⟩ => ⟨S_, .i32⟩
  | .hbm, ⟨8, _⟩ => ⟨S12288x2048, .i32⟩
  | .hbm, ⟨9, _⟩ => ⟨S12288x2048, .i32⟩
  | .hbm, ⟨10, _⟩ => ⟨S_, .i32⟩
  | .hbm, ⟨11, _⟩ => ⟨S12288x2048, .i32⟩
  | .hbm, ⟨12, _⟩ => ⟨S12288x2048, .i32⟩
  | .hbm, ⟨13, _⟩ => ⟨S12288x2048x1, .i32⟩
  | .hbm, ⟨14, _⟩ => ⟨S12288x2048x1, .i32⟩
  | .hbm, ⟨15, _⟩ => ⟨S12288x2048x2, .i32⟩
  | .hbm, ⟨16, _⟩ => ⟨S12288x4096, .i32⟩
  | .hbm, ⟨17, _⟩ => ⟨S12288x4096, .f32⟩
  | .hbm, ⟨18, _⟩ => ⟨S12288x32x128, .f32⟩
  | .hbm, ⟨19, _⟩ => ⟨S12288x32x1, .f32⟩
  | .hbm, ⟨20, _⟩ => ⟨S12288x32x128, .f32⟩
  | .hbm, ⟨21, _⟩ => ⟨S12288x32x128, .f32⟩
  | .hbm, ⟨22, _⟩ => ⟨S12288x32x1, .f32⟩
  | .hbm, ⟨23, _⟩ => ⟨S12288x32x128, .f32⟩
  | .hbm, ⟨24, _⟩ => ⟨S12288x32x128, .f32⟩
  | .hbm, ⟨25, _⟩ => ⟨S12288x4096, .f32⟩
  | .hbm, ⟨26, _⟩ => ⟨S4x2048x12288, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S_S12288x2048 : S_.BroadcastsInDim S12288x2048 (![] : Fin 0 → Fin S12288x2048.rank)
  bcast_S12288x2048_S12288x2048x1_0_1 : S12288x2048.BroadcastsInDim S12288x2048x1 (![0, 1] : Fin 2 → Fin S12288x2048x1.rank)
  concatenates_S12288x2048x1_S12288x2048x1_S12288x2048x2_d2 : Shape.Concatenates [S12288x2048x1, S12288x2048x1] S12288x2048x2 2
  shapeCasts_S12288x2048x2_S12288x4096 : S12288x2048x2.ShapeCasts S12288x4096
  shapeCasts_S12288x4096_S12288x32x128 : S12288x4096.ShapeCasts S12288x32x128
  bcast_S12288x32_S12288x32x1_0_1 : S12288x32.BroadcastsInDim S12288x32x1 (![0, 1] : Fin 2 → Fin S12288x32x1.rank)
  bcast_S12288x32x1_S12288x32x128_0_1_2 : S12288x32x1.BroadcastsInDim S12288x32x128 (![0, 1, 2] : Fin 3 → Fin S12288x32x128.rank)
  shapeCasts_S12288x32x128_S12288x4096 : S12288x32x128.ShapeCasts S12288x4096
  dot_S4x2048x4096_S12288x4096_S4x2048x12288_2_1_01_0_n_n_wf : DotDims.WF S4x2048x4096 S12288x4096 S4x2048x12288 [2] [1] [0, 1] [0] [] []

variable [Facts₀]

def dot_S4x2048x4096_S12288x4096_S4x2048x12288_2_1_01_0_n_n : DotDims S4x2048x4096 S12288x4096 S4x2048x12288 where
  lhsContracting := [2]
  rhsContracting := [1]
  lhsNonContracting := [0, 1]
  rhsNonContracting := [0]
  lhsBatch := []
  rhsBatch := []
  wf := dot_S4x2048x4096_S12288x4096_S4x2048x12288_2_1_01_0_n_n_wf

class Facts : Prop extends Facts₀ where

variable [Facts]
-- ==== Proof.BodyValue.lean ====
/-
  What the matmul body leaves in the output block, case by case, and how the carried block evolves along the grid.

  The grid is (4, 8, 4) with the contraction chunk `k` as the fastest axis, so point `t` has `k = t mod 4`. At
  `k = 0` the body first stores the zero block and then adds the product of the point's two input blocks to what it
  reads back; at `k ≠ 0` it adds that product to what the point before left. With `step acc x w` the body's one
  arithmetic payload (`acc + x·wᵀ`, the product accumulated from a zero splat), the block after point `t` is
      step 0 x_t w_t                 when t mod 4 = 0,
      step (block after t-1) x_t w_t  otherwise.
  Nothing here depends on the float instance.
-/
import proofs.«419699_j29669634081275_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The zero block the reset stores. -/
abbrev zeroBlock : Vec F S2048x1536 .f32 := k0_pay1 (F := F)

/-- One accumulation: the carried block plus the product of the two input blocks. -/
abbrev step (acc : Vec F S2048x1536 .f32) (x : Vec F S2048x1024 .bf16) (w : Vec F S1536x1024 .bf16) : Vec F S2048x1536 .f32 :=
  k0_pay2 acc x w

/-- A point with `k ≠ 0`: the one covering store writes `step` of what the buffers held. -/
theorem out_B (c : Dev nD) (i : grid0.Coords) (a3 : Memref sig .tc .vmem S2048x1024 .bf16) (h3 : a3.IsWhole)
    (a4 : Memref sig .tc .vmem S1536x1024 .bf16) (h4 : a4.IsWhole) (a5 : Memref sig .tc .vmem S2048x1536 .f32) (h5 : a5.IsWhole)
    (hc : ¬cond0_0 i) (x0 : Vec F S2048x1024 .bf16) (x1 : Vec F S1536x1024 .bf16) (xo : Vec F S2048x1536 .f32) :
    out0_B_2 c i a3 h3 a4 h4 a5 h5 hc x0 x1 xo = step xo x0 x1 := by
  unfold out0_B_2
  rw [View.read_writes_eq_canon _ _ _ (cover0_B_2 c i a3 h3 a4 h4 a5 h5 hc x0 x1 xo)]
  unfold kernelRun0_B
  dsimp only
  sl_unfold_words
  rw [View.canon_unit_zero hz]
  simp only [View.readAt_eq_ld, h3.read_unread, h4.read_unread, h5.read_unread, View.ld_unit_zero (S := S2048x1536) hz,
    View.ld_unit_zero (S := S2048x1024) hz, View.ld_unit_zero (S := S1536x1024) hz]

/-- A point with `k = 0`: the zero block is stored, read back, and the product added to it. -/
theorem out_A (c : Dev nD) (i : grid0.Coords) (a3 : Memref sig .tc .vmem S2048x1024 .bf16) (h3 : a3.IsWhole)
    (a4 : Memref sig .tc .vmem S1536x1024 .bf16) (h4 : a4.IsWhole) (a5 : Memref sig .tc .vmem S2048x1536 .f32) (h5 : a5.IsWhole)
    (hc : cond0_0 i) (x0 : Vec F S2048x1024 .bf16) (x1 : Vec F S1536x1024 .bf16) :
    out0_A_2 c i a3 h3 a4 h4 a5 h5 hc x0 x1 = step zeroBlock x0 x1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S2048x1536) hz, View.readCov_unit_zero (S := S2048x1536) _ hz]
  simp only [View.readAt_eq_ld, h3.read_unread, h4.read_unread, View.ld_unit_zero (S := S2048x1536) hz,
    View.ld_unit_zero (S := S2048x1024) hz, View.ld_unit_zero (S := S1536x1024) hz]

/-- The carried block after a point with `k = 0`: one accumulation from the zero block. -/
theorem after_reset (c : Dev nD) (t : Fin cfg0.N) (h0 : t.val % 4 = 0) :
    outsAt0 m c t.val t.isLt = step zeroBlock (iblk m c 0 t) (iblk m c 1 t) :=
  (outsAt0_A m c t h0).trans (out_A c (grid0.coords t) (ms0_0 t) (hs0_0 t) (ms0_1 t) (hs0_1 t) (ms0_2 t) (hs0_2 t)
    ((hcond0_0 t).mpr h0) (iblk m c 0 t) (iblk m c 1 t))

/-- The carried block after a point with `k ≠ 0`: one accumulation onto what the point before left. -/
theorem after_step (c : Dev nD) (t : Fin cfg0.N) (h0 : ¬t.val % 4 = 0) :
    outsAt0 m c t.val t.isLt
      = step (outsAt0 m c (t.val - 1) (Nat.lt_of_le_of_lt (Nat.sub_le _ _) t.isLt)) (iblk m c 0 t) (iblk m c 1 t) :=
  (outsAt0_B m c t h0).trans (out_B c (grid0.coords t) (ms0_0 t) (hs0_0 t) (ms0_1 t) (hs0_1 t) (ms0_2 t) (hs0_2 t)
    (fun h => h0 ((hcond0_0 t).mp h)) (iblk m c 0 t) (iblk m c 1 t) (outsAt0 m c (t.val - 1) (Nat.lt_of_le_of_lt (Nat.sub_le _ _) t.isLt)))

end Cert.KernelIdeal.Body

end
-- ==== Proof.StepIdeal.lean ====
/-
  One accumulation of the matmul body, read entry by entry over the extended reals.

  For the carried block `acc` (2048 × 1536), the x-block `x` (2048 × 1024) and the weight block `w` (1536 × 1024), entry
  (p, q) of `step acc x w` is
      acc(p, q) + Σ_{κ < 1024} x(p, κ) · w(q, κ):
  the product contracts the second axis of both blocks (x times the transpose of w), starts from the zero splat, and
  at the ideal values has no rounding and no chunk order left in it. The zero block is 0 at every entry.
-/
import proofs.«419699_j29669634081275_3_alg».proof.Proof.BodyValue
import Idealize.ShloMosaic.PureOps.Ideal.Laws
import Idealize.ShloMosaic.Lib.ValueIdx

noncomputable section

open Idealize.ShloMosaic Idealize.ShloMosaic.TcCoe Idealize.SL.Sem
open Idealize.ShloMosaic.ValueIdx

namespace Cert.KernelIdeal.Body

open Cert.KernelIdeal Cert.KernelIdeal.Gen

/-- Axis 0 of the x-block's index is the output row. -/
theorem lhs_blk_0 (i : S2048x1536.Idx) (q : dot_S2048x1024_S1536x1024_S2048x1536_1_1_0_0_n_n.contr.Idx) :
    (dot_S2048x1024_S1536x1024_S2048x1536_1_1_0_0_n_n.lhsIdx i q 0).val = (i 0).val := by
  unfold DotDims.lhsIdx
  rw [dif_neg (show ¬(0 : Fin S2048x1024.rank) ∈ dot_S2048x1024_S1536x1024_S2048x1536_1_1_0_0_n_n.lhsBatch by decide), dif_pos (show (0 : Fin S2048x1024.rank) ∈ dot_S2048x1024_S1536x1024_S2048x1536_1_1_0_0_n_n.lhsNonContracting by decide)]
  rfl
/-- Axis 1 of the x-block's index is the contraction position. -/
theorem lhs_blk_1 (i : S2048x1536.Idx) (q : dot_S2048x1024_S1536x1024_S2048x1536_1_1_0_0_n_n.contr.Idx) :
    (dot_S2048x1024_S1536x1024_S2048x1536_1_1_0_0_n_n.lhsIdx i q 1).val = (q ⟨0, by decide⟩).val :=
  dot_S2048x1024_S1536x1024_S2048x1536_1_1_0_0_n_n.lhsIdx_val_of_single rfl i q
/-- Axis 0 of the weight block's index is the output column. -/
theorem rhs_blk_0 (i : S2048x1536.Idx) (q : dot_S2048x1024_S1536x1024_S2048x1536_1_1_0_0_n_n.contr.Idx) :
    (dot_S2048x1024_S1536x1024_S2048x1536_1_1_0_0_n_n.rhsIdx i q 0).val = (i 1).val := by
  unfold DotDims.rhsIdx
  rw [dif_neg (show ¬(0 : Fin S1536x1024.rank) ∈ dot_S2048x1024_S1536x1024_S2048x1536_1_1_0_0_n_n.rhsBatch by decide), dif_pos (show (0 : Fin S1536x1024.rank) ∈ dot_S2048x1024_S1536x1024_S2048x1536_1_1_0_0_n_n.rhsNonContracting by decide)]
  rfl
/-- Axis 1 of the weight block's index is the contraction position. -/
theorem rhs_blk_1 (i : S2048x1536.Idx) (q : dot_S2048x1024_S1536x1024_S2048x1536_1_1_0_0_n_n.contr.Idx) :
    (dot_S2048x1024_S1536x1024_S2048x1536_1_1_0_0_n_n.rhsIdx i q 1).val = (q ⟨0, by decide⟩).val :=
  dot_S2048x1024_S1536x1024_S2048x1536_1_1_0_0_n_n.rhsIdx_val_of_single rfl i q

/-- The product of the two blocks from the zero splat, at entry (p, q): the dot of row p of x with row q of w. -/
theorem product_apply (x : FVec Ideal S2048x1024 .bf16) (w : FVec Ideal S1536x1024 .bf16) (p : Fin 2048) (q : Fin 1536) :
    matmul (F := Ideal) dot_S2048x1024_S1536x1024_S2048x1536_1_1_0_0_n_n none x w (constant S2048x1536 .f32 0x00000000#32) (ix2 p q)
      = ∑ κ : Fin 1024, x (ix2 p κ) * w (ix2 q κ) := by
  simp only [matmul]
  rw [Ideal.matmul_constant_zero_apply, ← Equiv.sum_comp (ValueIdx.contrEquiv1 dot_S2048x1024_S1536x1024_S2048x1536_1_1_0_0_n_n 1024 rfl rfl).symm]
  refine Finset.sum_congr rfl fun k _ => ?_
  have hk := ValueIdx.contrEquiv1_symm_val dot_S2048x1024_S1536x1024_S2048x1536_1_1_0_0_n_n 1024 rfl rfl k
  have el : dot_S2048x1024_S1536x1024_S2048x1536_1_1_0_0_n_n.lhsIdx (ix2 p q) ((ValueIdx.contrEquiv1 dot_S2048x1024_S1536x1024_S2048x1536_1_1_0_0_n_n 1024 rfl rfl).symm k) = ix2 p k := funext fun a => Fin.ext (by
    match a with
    | ⟨0, _⟩ => exact lhs_blk_0 _ _
    | ⟨1, _⟩ => exact (lhs_blk_1 _ _).trans hk)
  have er : dot_S2048x1024_S1536x1024_S2048x1536_1_1_0_0_n_n.rhsIdx (ix2 p q) ((ValueIdx.contrEquiv1 dot_S2048x1024_S1536x1024_S2048x1536_1_1_0_0_n_n 1024 rfl rfl).symm k) = ix2 q k := funext fun a => Fin.ext (by
    match a with
    | ⟨0, _⟩ => exact rhs_blk_0 _ _
    | ⟨1, _⟩ => exact (rhs_blk_1 _ _).trans hk)
  rw [el, er]

/-- One accumulation at entry (p, q). -/
theorem step_apply (acc : Vec Ideal S2048x1536 .f32) (x : Vec Ideal S2048x1024 .bf16) (w : Vec Ideal S1536x1024 .bf16)
    (p : Fin 2048) (q : Fin 1536) :
    step (F := Ideal) acc x w (ix2 p q) = acc (ix2 p q) + ∑ κ : Fin 1024, x (ix2 p κ) * w (ix2 q κ) := by
  unfold step k0_pay2
  simp only [shapeCast_self]
  rw [addf_apply, product_apply]

/-- The zero block is 0 at every entry. -/
theorem zeroBlock_apply (j : S2048x1536.Idx) : zeroBlock (F := Ideal) j = 0 := by
  unfold zeroBlock k0_pay1
  show Ideal.ofBits .f32 0x00000000#32 = 0
  exact Ideal.ofBits_zero_f32

end Cert.KernelIdeal.Body

end
-- ==== Proof.Blocks.lean ====
/-
  Where the blocks of a grid point lie in their arrays.

  Point `t` of the (4, 8, 4) grid has row-block `i = t / 32`, column-block `j = (t / 4) mod 8` and contraction
  chunk `k = t mod 4`. The x-window's block at `t` is rows `2048·i …`, columns `1024·k …` of the [8192, 4096] array;
  the weight window's block is rows `1536·j …`, columns `1024·k …` of the [12288, 4096] array; the output window's
  block is rows `2048·i …`, columns `1536·j …` of the [8192, 12288] array, and it is written back exactly at `k = 3`.
-/
import proofs.«419699_j29669634081275_3_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The three printed index maps in closed form, decided over the 128 points of the grid. -/
theorem index_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 32 ∧ win0_2.index t (1 : Fin 2) = t.val / 4 % 8 :=
  (by decide +kernel : ∀ t : Fin grid0.N, _)

/-- The x array as the region finds it. -/
abbrev xArr (c : Dev nD) : Vec F S8192x4096 .bf16 := V m c main_v21
/-- The weight array as the region finds it. -/
abbrev wArr (c : Dev nD) : Vec F S12288x4096 .bf16 := V m c main_v19

/-- Entry (p, κ) of the x-block at point `t` is entry (2048·(t/32) + p, 1024·(t mod 4) + κ) of the x array. -/
theorem xblk_apply (c : Dev nD) (t : Fin cfg0.N) (p : Fin 2048) (κ : Fin 1024) (r : Fin 8192) (ι : Fin 4096)
    (hr : r.val = t.val / 32 * 2048 + p.val) (hι : ι.val = t.val % 4 * 1024 + κ.val) :
    (iblk m c 0 t : Vec F S2048x1024 .bf16) (ix2 p κ) = xArr m c (ix2 r ι) := by
  obtain ⟨e0, e1, -, -, -, -⟩ := index_facts t
  unfold iblk
  rw [View.read_apply]
  show V m c main_v21 _ = V m c main_v21 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 1024 + 1 * κ.val = ι.val; rw [e1, hι]; omega

/-- Entry (q, κ) of the weight block at point `t` is entry (1536·((t/4) mod 8) + q, 1024·(t mod 4) + κ) of the weight array. -/
theorem wblk_apply (c : Dev nD) (t : Fin cfg0.N) (q : Fin 1536) (κ : Fin 1024) (o : Fin 12288) (ι : Fin 4096)
    (ho : o.val = t.val / 4 % 8 * 1536 + q.val) (hι : ι.val = t.val % 4 * 1024 + κ.val) :
    (iblk m c 1 t : Vec F S1536x1024 .bf16) (ix2 q κ) = wArr m c (ix2 o ι) := by
  obtain ⟨-, -, e0, e1, -, -⟩ := index_facts t
  unfold iblk
  rw [View.read_apply]
  show V m c main_v19 _ = V m c main_v19 _
  congr 1
  funext a
  apply Fin.ext
  match a with
  | ⟨0, _⟩ => show win0_1.index t (0 : Fin 2) * 1536 + 1 * q.val = o.val; rw [e0, ho]; omega
  | ⟨1, _⟩ => show win0_1.index t (1 : Fin 2) * 1024 + 1 * κ.val = ι.val; rw [e1, hι]; omega

end Cert.KernelIdeal.Blocks

end
-- ==== Proof.Regroup.lean ====
/-
  Regrouping a sum of 4096 terms into four consecutive runs of 1024.

  The contraction axis of length 4096 is walked by the kernel in four chunks of 1024: chunk `k` holds the
  positions `1024·k + κ`, `κ < 1024`. Starting from zero and adding the four chunk sums one after the other gives the
  sum over the whole axis. Only commutativity and associativity of addition are used, so the statement is made over
  any additive commutative monoid; in particular it holds on the extended reals with no finiteness assumption.
-/
import Mathlib.Algebra.BigOperators.Fin
import Mathlib.Data.Fintype.BigOperators
import Mathlib.Logic.Equiv.Fin.Basic

namespace Cert.Regroup

open Finset

/-- Position `κ` of chunk `k` is position `1024·k + κ` of the whole axis: a bijection between the pairs
    (chunk, position in the chunk) and the positions of the axis. -/
def chunkEquiv : Fin 4 × Fin 1024 ≃ Fin 4096 :=
  finProdFinEquiv.trans (finCongr (by decide))

theorem chunkEquiv_val (k : Fin 4) (κ : Fin 1024) : (chunkEquiv (k, κ)).val = 1024 * k.val + κ.val := by
  show κ.val + 1024 * k.val = 1024 * k.val + κ.val
  omega

/-- `(((0 + S₀) + S₁) + S₂) + S₃ = Σ_ι f ι`, where `S_k = Σ_κ g k κ` and `g k κ` is `f` at position `1024·k + κ`. -/
theorem chain_eq_sum {M : Type*} [AddCommMonoid M] (f : Fin 4096 → M) (g : Fin 4 → Fin 1024 → M)
    (h : ∀ (k : Fin 4) (κ : Fin 1024) (ι : Fin 4096), ι.val = 1024 * k.val + κ.val → g k κ = f ι) :
    (((0 + ∑ κ, g 0 κ) + ∑ κ, g 1 κ) + ∑ κ, g 2 κ) + ∑ κ, g 3 κ = ∑ ι, f ι := by
  have hk : ∀ k : Fin 4, ∑ κ, g k κ = ∑ κ, f (chunkEquiv (k, κ)) := fun k =>
    Finset.sum_congr rfl fun κ _ => h k κ _ (chunkEquiv_val k κ)
  rw [← Equiv.sum_comp chunkEquiv f, Fintype.sum_prod_type, Fin.sum_univ_four, zero_add, hk, hk, hk, hk]

end Cert.Regroup
-- ==== Proof.Accumulate.lean ====
/-
  The output block at a write-back point holds the full-length dot products.

  Fix a point `t` with `t mod 4 = 3` (the last contraction chunk of its (row-block, column-block) pair). The three points
  before it belong to the same pair, with chunks 0, 1, 2. Unrolling the carried block — three accumulations back to the
  reset — entry (p, q) of the block after `t` is
      (((0 + D₀) + D₁) + D₂) + D₃,   D_k = Σ_{κ<1024} x-block_k(p, κ) · w-block_k(q, κ),
  and `x-block_k(p, κ)`, `w-block_k(q, κ)` are the array entries at contraction position `1024·k + κ`. Regrouping the four
  chunk sums gives `Σ_{ι<4096} X(r, ι) · W(o, ι)` for the array row `r` and weight row `o` the entry belongs to.
-/
import proofs.«419699_j29669634081275_3_alg».proof.Proof.StepIdeal
import proofs.«419699_j29669634081275_3_alg».proof.Proof.Blocks
import proofs.«419699_j29669634081275_3_alg».proof.Proof.Regroup

noncomputable section

open Idealize.ShloMosaic Idealize.ShloMosaic.TcCoe Idealize.SL.Sem
open Idealize.ShloMosaic.ValueIdx

namespace Cert.KernelIdeal.Accum

open Cert.KernelIdeal Cert.KernelIdeal.Gen Cert.KernelIdeal.Body Cert.KernelIdeal.Blocks

variable (m : (ℓ : Loc nD τ sig) → Buf (Elt Ideal) ℓ)

/-- The x-block and the weight block of a point, at their literal types. -/
abbrev xblk (c : Dev nD) (t : Fin cfg0.N) : FVec Ideal S2048x1024 .bf16 := iblk m c 0 t
abbrev wblk (c : Dev nD) (t : Fin cfg0.N) : FVec Ideal S1536x1024 .bf16 := iblk m c 1 t

/-- The chunk dot product point `t` contributes to entry (p, q). -/
def chunkDot (c : Dev nD) (t : Fin cfg0.N) (p : Fin 2048) (q : Fin 1536) : EReal :=
  ∑ κ : Fin 1024, xblk m c t (ix2 p κ) * wblk m c t (ix2 q κ)

/-- After a point with chunk 0, entry (p, q) is `0 +` that point's chunk dot product. -/
theorem reset_apply (c : Dev nD) (n : ℕ) (hn : n < cfg0.N) (h0 : n % 4 = 0) (p : Fin 2048) (q : Fin 1536) :
    (outsAt0 m c n hn : FVec Ideal S2048x1536 .f32) (ix2 p q) = 0 + chunkDot m c ⟨n, hn⟩ p q :=
  (congrFun (after_reset m c ⟨n, hn⟩ h0) (ix2 p q)).trans
    ((step_apply (zeroBlock (F := Ideal)) (xblk m c ⟨n, hn⟩) (wblk m c ⟨n, hn⟩) p q).trans
      (congrArg (· + chunkDot m c ⟨n, hn⟩ p q) (zeroBlock_apply (ix2 p q))))

/-- After a point with another chunk, entry (p, q) is the entry the point before left plus this point's chunk dot product. -/
theorem step_apply_at (c : Dev nD) (n : ℕ) (hn : n + 1 < cfg0.N) (h0 : ¬(n + 1) % 4 = 0) (p : Fin 2048) (q : Fin 1536) :
    (outsAt0 m c (n + 1) hn : FVec Ideal S2048x1536 .f32) (ix2 p q)
      = (outsAt0 m c n (Nat.lt_of_succ_lt hn) : FVec Ideal S2048x1536 .f32) (ix2 p q) + chunkDot m c ⟨n + 1, hn⟩ p q :=
  (congrFun (after_step m c ⟨n + 1, hn⟩ h0) (ix2 p q)).trans
    (step_apply (outsAt0 m c n (Nat.lt_of_succ_lt hn)) (xblk m c ⟨n + 1, hn⟩) (wblk m c ⟨n + 1, hn⟩) p q)

/-- THE BLOCK AT A WRITE-BACK POINT: entry (p, q) of the block after a point `n + 3` with `n mod 4 = 0` is the dot product,
    over the whole contraction axis, of row `r` of the x array with row `o` of the weight array, where `r` and `o` are
    the array rows the entry stands for. -/
theorem block_value (c : Dev nD) (n : ℕ) (hn : n + 3 < cfg0.N) (h0 : n % 4 = 0) (p : Fin 2048) (q : Fin 1536)
    (r : Fin 8192) (o : Fin 12288) (hr : r.val = (n + 3) / 32 * 2048 + p.val) (ho : o.val = (n + 3) / 4 % 8 * 1536 + q.val) :
    (outsAt0 m c (n + 3) hn : FVec Ideal S2048x1536 .f32) (ix2 p q)
      = ∑ ι : Fin 4096, xArr m c (ix2 r ι) * wArr m c (ix2 o ι) := by
  have hN : cfg0.N = 128 := N_0
  rw [step_apply_at m c (n + 2) hn (by omega) p q, step_apply_at m c (n + 1) (by omega) (by omega) p q,
    step_apply_at m c n (by omega) (by omega) p q, reset_apply m c n (by omega) h0 p q]
  refine Cert.Regroup.chain_eq_sum (fun ι => xArr m c (ix2 r ι) * wArr m c (ix2 o ι))
    (fun k κ => xblk m c ⟨n + k.val, by have := k.isLt; omega⟩ (ix2 p κ) * wblk m c ⟨n + k.val, by have := k.isLt; omega⟩ (ix2 q κ)) ?_
  intro k κ ι hι
  have hk := k.isLt
  exact congrArg₂ (· * ·)
    (xblk_apply m c ⟨n + k.val, by omega⟩ p κ r ι (by dsimp only; omega) (by dsimp only; omega))
    (wblk_apply m c ⟨n + k.val, by omega⟩ q κ o ι (by dsimp only; omega) (by dsimp only; omega))

end Cert.KernelIdeal.Accum

end
-- ==== Proof.OutputArray.lean ====
/-
  The kernel's output array after the run is the product of the x array with the transposed weight array.

  `prodArr X W` is the [8192, 12288] array whose entry (r, o) is `Σ_{ι<4096} X(r, ι) · W(o, ι)`. Every write-back point
  (`t mod 4 = 3`) writes the block of `prodArr` that its output window addresses — rows `2048·(t/32) …`, columns
  `1536·((t/4) mod 8) …` —, and these 32 blocks tile the array: entry (r, o) lies in the block of the point with row-block
  `r / 2048`, column-block `o / 1536` and chunk 3. So the array ends holding `prodArr` of the two arrays the region found.
-/
import proofs.«419699_j29669634081275_3_alg».proof.Proof.Accumulate

noncomputable section

open Idealize.ShloMosaic Idealize.ShloMosaic.TcCoe Idealize.SL.Sem
open Idealize.ShloMosaic.ValueIdx
open Idealize.ShloMosaic.Pipeline (Dat)

namespace Cert.KernelIdeal.OutArr

open Cert.KernelIdeal Cert.KernelIdeal.Gen Cert.KernelIdeal.Blocks Cert.KernelIdeal.Accum

variable (m : (ℓ : Loc nD τ sig) → Buf (Elt Ideal) ℓ)

/-- Entry (r, o): the dot product, over the contraction axis of length 4096, of row r of `X` with row o of `W`. -/
def prodArr (X : FVec Ideal S8192x4096 .bf16) (W : FVec Ideal S12288x4096 .bf16) : FVec Ideal S8192x12288 .f32 :=
  fun i => ∑ ι : Fin 4096, X (ix2 (⟨(i 0).val, (i 0).isLt⟩ : Fin 8192) ι) * W (ix2 (⟨(i 1).val, (i 1).isLt⟩ : Fin 12288) ι)

/-- Entry (p, q) of the block after a write-back point is the entry of `prodArr` at the array position it stands for. -/
theorem flushed_entry (c : Dev nD) (t : Fin cfg0.N) (h3 : t.val % 4 = 3) (p : Fin 2048) (q : Fin 1536) (i : S8192x12288.Idx)
    (hi0 : (i 0).val = t.val / 32 * 2048 + p.val) (hi1 : (i 1).val = t.val / 4 % 8 * 1536 + q.val) :
    (outsAt0 m c t.val t.isLt : FVec Ideal S2048x1536 .f32) (ix2 p q) = prodArr (xArr m c) (wArr m c) i := by
  obtain ⟨tv, ht⟩ := t
  obtain ⟨n, rfl⟩ : ∃ n, tv = n + 3 := ⟨tv - 3, by dsimp only at h3; omega⟩
  exact block_value m c n ht (by dsimp only at h3; omega) p q ⟨(i 0).val, (i 0).isLt⟩ ⟨(i 1).val, (i 1).isLt⟩ hi0 hi1

/-- WHAT A WRITE-BACK POINT WRITES is its block of `prodArr` of the arrays as the region finds them. -/
theorem flushed_eq (c : Dev nD) (t : Fin cfg0.N) (hf : (cfg0.win 2).flush t = true) :
    (dats m 0 c).flushed 2 t = ((cfg0.win 2).blk t).view.read (Elt Ideal) (prodArr (xArr m c) (wArr m c)) := by
  have h3 : t.val % 4 = 3 := (flush0_2 t).mp hf
  obtain ⟨-, -, -, -, e0, e1⟩ := index_facts t
  show (cfg0.win 2).cut (grid0.coords t) ((dats m 0 c).after 2 t) = _
  rw [after0_2]
  funext y
  rw [View.read_apply]
  show (outsAt0 m c t.val t.isLt : FVec Ideal S2048x1536 .f32) y = prodArr (xArr m c) (wArr m c) (((cfg0.win 2).blk t).view.emb y)
  refine (congrArg (outsAt0 m c t.val t.isLt : FVec Ideal S2048x1536 .f32) (eq_ix2 y)).trans ?_
  refine flushed_entry m c t h3 (y 0) (y 1) _ ?_ ?_
  · show win0_2.index t (0 : Fin 2) * 2048 + 1 * (y 0).val = _
    rw [e0]; omega
  · show win0_2.index t (1 : Fin 2) * 1536 + 1 * (y 1).val = _
    rw [e1]; omega

/-- An index of the array is in point `t`'s block iff each coordinate is in the block's range on its axis. -/
theorem mem_blk (t : Fin cfg0.N) (i : S8192x12288.Idx) :
    i ∈ ((cfg0.win 2).blk t).view.set ↔ ∀ a : Fin 2, win0_2.index t a * S2048x1536.size a ≤ (i a).val ∧ (i a).val < win0_2.index t a * S2048x1536.size a + S2048x1536.size a := by
  show i ∈ ((View.whole main_v22).slice (win0_2.rect t)).set ↔ _
  rw [View.set_slice_whole, Rect.mem_set_unit]
  exact Iff.rfl

/-- The write-back blocks tile the array: entry (r, o) is in the block of the point (r / 2048, o / 1536, 3). -/
theorem cover (i : S8192x12288.Idx) :
    ∃ t : Fin cfg0.N, (cfg0.win 2).flush t = true ∧ i ∈ ((cfg0.win 2).blk t).view.set := by
  have hi0 : (i 0).val < 8192 := (i 0).isLt
  have hi1 : (i 1).val < 12288 := (i 1).isLt
  have hN : cfg0.N = 128 := N_0
  have ht : ((i 0).val / 2048 * 8 + (i 1).val / 1536) * 4 + 3 < cfg0.N := by omega
  obtain ⟨-, -, -, -, e0, e1⟩ := index_facts ⟨_, ht⟩
  refine ⟨⟨_, ht⟩, (flush0_2 _).mpr (by dsimp only; omega), ?_⟩
  rw [mem_blk]
  intro a
  match a with
  | ⟨0, _⟩ =>
    show win0_2.index ⟨_, ht⟩ (0 : Fin 2) * 2048 ≤ (i 0).val ∧ (i 0).val < win0_2.index ⟨_, ht⟩ (0 : Fin 2) * 2048 + 2048
    rw [e0]; dsimp only; omega
  | ⟨1, _⟩ =>
    show win0_2.index ⟨_, ht⟩ (1 : Fin 2) * 1536 ≤ (i 1).val ∧ (i 1).val < win0_2.index ⟨_, ht⟩ (1 : Fin 2) * 1536 + 1536
    rw [e1]; dsimp only; omega

/-- THE OUTPUT ARRAY after the run. -/
theorem final (c : Dev nD) : (dats m 0 c).arrAt 2 cfg0.N = prodArr (xArr m c) (wArr m c) :=
  (dats m 0 c).arrAt_eq_of_cover 2 (prodArr (xArr m c) (wArr m c)) (flushed_eq m c) cover

end Cert.KernelIdeal.OutArr

end
-- ==== Proof.KernelRun.lean ====
/-
  The idealized kernel's run, read: what its result array holds as a function of the four arguments.

  Before the region, @main reshapes x from [4, 2048, 4096] to [8192, 4096] and changes its format, and computes the
  dequantized weight matrix (nibbles of the packed words as floats, times the group's scale, plus the group's zero
  point) and changes its format too; after the region it reshapes the [8192, 12288] product to [4, 2048, 12288]. The
  weight computation is, operation for operation, the reference's: the result depends on it only as a matrix W.
-/
import proofs.«419699_j29669634081275_3_alg».proof.Proof.OutputArray
import proofs.«419699_j29669634081275_3_alg».proof.Proof.Gen.ReferenceIdeal.Read
import Idealize.ShloMosaic.Lib.StableHlo.Run
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.KernelIdeal.RunValue

open Cert.KernelIdeal Cert.KernelIdeal.Gen Cert.KernelIdeal.Blocks Cert.KernelIdeal.OutArr

variable (m : (ℓ : Loc nD τ sig) → Buf (Elt Ideal) ℓ) (ρ : Dev nD → PrngReg)

/-- The x array the region finds: the argument reshaped to [8192, 4096], its format changed. -/
theorem xArr_eq (c : Dev nD) :
    (xArr m c : FVec Ideal S8192x4096 .bf16)
      = truncf (F := Ideal) .bf16 (shapeCast S8192x4096 (m ((c.tc : Thread nD τ).loc main_arg0)) shapeCasts_S4x2048x4096_S8192x4096) bitsLt_bf16_f32 := by
  show StableHlo.after hostOps0 (fun b => m (c, b)) (Proc.devRef .tc main_v21) = _
  after_results
  rfl

set_option maxHeartbeats 2000000 in
/-- The weight array the region finds: the dequantized weights (the reference's stage term of the same three
    arguments), their format changed. -/
theorem wArr_eq (c : Dev nD) :
    (wArr m c : FVec Ideal S12288x4096 .bf16) = truncf (F := Ideal) .bf16 (Cert.ReferenceIdeal.Read.val_main_v18 (F := Ideal) (m ((c.tc : Thread nD τ).loc main_arg1))
      (m ((c.tc : Thread nD τ).loc main_arg2)) (m ((c.tc : Thread nD τ).loc main_arg3))) bitsLt_bf16_f32 := by
  show StableHlo.after hostOps0 (fun b => m (c, b)) (Proc.devRef .tc main_v19) = _
  after_results
  rfl

/-- The result array: the product array reshaped to [4, 2048, 12288]. -/
def result (c : Dev nD) : Buf (Elt Ideal) ((c.tc : Thread nD τ).loc main_v23) :=
  shapeCast S4x2048x12288 (prodArr (xArr m c) (wArr m c)) shapeCasts_S8192x12288_S4x2048x12288

theorem tail_eq (c : Dev nD) :
    Pipeline.afterTail₀ cfgs (dats m) 0 (V0 m) [hostOps1] c main_v23 = result m c := by
  unfold Pipeline.afterTail₀
  show StableHlo.after hostOps1 _ (Proc.devRef .tc main_v23) = _
  after_results
  have e := (Pipeline.withArrays_arr spec0 launch0.win.arr_inj c (V0 m c) (fun w => (dats m 0 c).arrAt w cfg0.N) 2).trans (final m c)
  funext i
  exact congrFun (congrArg (fun a => shapeCast S4x2048x12288 a shapeCasts_S8192x12288_S4x2048x12288) e) i

/-- THE RUN, READ: every weakly fair execution of the idealized kernel's @main terminates with the result array at
    `result` and the four arguments unchanged. -/
theorem run : θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v23 (Pipeline.mem_restRefs_of main_v23 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.RunValue

end
-- ==== Proof.Bridge.lean ====
/-
  The reference's result is the kernel's result: one function of the four arguments.

  The reference contracts x[b, s, ·] with W[o, ·] directly: entry (b, s, o) is `Σ_{ι<4096} x(b, s, ι) · W(o, ι)`. The kernel
  flattens (b, s) to the row `2048·b + s`, forms the [8192, 12288] product array and reshapes it back. Row-major reshapes
  keep positions, so entry (b, s, o) of the kernel's result is entry (2048·b + s, o) of the product array, whose x-row
  is x[b, s, ·]; the two format changes are the identity over the extended reals.
-/
import proofs.«419699_j29669634081275_3_alg».proof.Proof.KernelRun

noncomputable section

open Idealize.ShloMosaic Idealize.ShloMosaic.TcCoe Idealize.SL.Sem
open Idealize.ShloMosaic.ValueIdx

namespace Cert.Bridge

open Cert.KernelIdeal Cert.KernelIdeal.Gen Cert.KernelIdeal.OutArr

/-- Entry (b, s, o) of the reshaped product of the flattened x with the weights: the dot product of x[b, s, ·] with W[o, ·]. -/
theorem result_entry (x : FVec Ideal S4x2048x4096 .f32) (Wf : FVec Ideal S12288x4096 .f32) (j : S4x2048x12288.Idx) :
    shapeCast S4x2048x12288 (prodArr (truncf .bf16 (shapeCast S8192x4096 x shapeCasts_S4x2048x4096_S8192x4096) bitsLt_bf16_f32)
        (truncf .bf16 Wf bitsLt_bf16_f32)) shapeCasts_S8192x12288_S4x2048x12288 j
      = ∑ ι : Fin 4096, x (Cert.ReferenceIdeal.Read.lidx_main_v19 j ι) * Wf (Cert.ReferenceIdeal.Read.ridx_main_v19 j ι) := by
  have h0 : (j 0).val < 4 := (j 0).isLt
  have h1 : (j 1).val < 2048 := (j 1).isLt
  have h2 : (j 2).val < 12288 := (j 2).isLt
  rw [shapeCast_apply _ shapeCasts_S8192x12288_S4x2048x12288 j
    (ix2 (⟨(j 0).val * 2048 + (j 1).val, by omega⟩ : Fin 8192) (⟨(j 2).val, h2⟩ : Fin 12288))
    (by rw [Shape.rowMajor_val_two, Shape.rowMajor_val_three]
        show ((j 0).val * 2048 + (j 1).val) * 12288 + (j 2).val = ((j 0).val * 2048 + (j 1).val) * 12288 + (j 2).val
        rfl)]
  unfold prodArr
  refine Finset.sum_congr rfl fun ι _ => ?_
  rw [truncf_apply, truncf_apply]
  refine congrArg₂ (· * ·) ?_ ?_
  · refine shapeCast_apply x shapeCasts_S4x2048x4096_S8192x4096 _ _ ?_
    rw [Shape.rowMajor_val_three, Shape.rowMajor_val_two]
    show ((j 0).val * 2048 + (j 1).val) * 4096 + ι.val = ((j 0).val * 2048 + (j 1).val) * 4096 + ι.val
    rfl
  · refine congrArg Wf (funext fun a => Fin.ext ?_)
    match a with
    | ⟨0, _⟩ => rfl
    | ⟨1, _⟩ => rfl

/-- The reference's last stage is the kernel's result function of the same arguments. -/
theorem reference_eq (x0 : FVec Ideal S4x2048x4096 .f32) (x1 : IVec S12288x2048 32) (x2 x3 : FVec Ideal S12288x32 .f32) :
    Cert.ReferenceIdeal.Read.val_main_v19 (F := Ideal) x0 x1 x2 x3
      = shapeCast S4x2048x12288 (prodArr (truncf .bf16 (shapeCast S8192x4096 x0 shapeCasts_S4x2048x4096_S8192x4096) bitsLt_bf16_f32)
          (truncf .bf16 (Cert.ReferenceIdeal.Read.val_main_v18 (F := Ideal) x1 x2 x3) bitsLt_bf16_f32)) shapeCasts_S8192x12288_S4x2048x12288 := by
  funext j
  rw [Cert.ReferenceIdeal.Read.val_main_v19_apply]
  exact (result_entry x0 (Cert.ReferenceIdeal.Read.val_main_v18 (F := Ideal) x1 x2 x3) j).symm

end Cert.Bridge

end
-- ==== Proof.lean ====
/-
  An int4-quantized linear layer: y[b, s, o] = Σ_{ι<4096} x[b, s, ι] · W[o, ι], where the weight matrix W (12288 × 4096) is
  dequantized from packed nibbles: W[o, ι] = nibble(o, ι) · scale[o, ι / 128] + zero_point[o, ι / 128], the high nibble of
  a packed word giving the even column and the low nibble the odd one.

  Both programs compute W by the same host operations. The reference then contracts x with W in one `dot_general`. The
  kernel flattens x to 8192 rows, changes both operands' format (the identity over the extended reals) and multiplies
  them tile by tile on a (4, 8, 4) grid: the output tile of a (row-block, column-block) pair is zeroed at the first of
  its four contraction chunks and accumulates one 1024-long partial dot product per chunk; it is written back after the
  fourth. Over the extended reals the four partial sums added in order are the sum over the whole contraction axis —
  addition there is commutative and associative, so no finiteness of the inputs is needed — and the written-back tiles
  tile the output, which is finally reshaped to [4, 2048, 12288]. Hence the two results are one function of the four
  arguments.

  The three frames are the generated ones (the reference's being its generated run with the result dropped); the ideal
  pass rewrote nothing, so the idealization claim is trivial.
-/
import proofs.«419699_j29669634081275_3_alg».proof.Defs
import proofs.«419699_j29669634081275_3_alg».proof.Proof.Gen.Kernel
import proofs.«419699_j29669634081275_3_alg».proof.Proof.Gen.Kernel.Skeleton
import proofs.«419699_j29669634081275_3_alg».proof.Proof.Gen.Kernel.Launch
import proofs.«419699_j29669634081275_3_alg».proof.Proof.Gen.Kernel.Points
import proofs.«419699_j29669634081275_3_alg».proof.Proof.Gen.Kernel.Frame
import proofs.«419699_j29669634081275_3_alg».proof.Proof.Gen.KernelIdeal
import proofs.«419699_j29669634081275_3_alg».proof.Proof.Gen.KernelIdeal.Skeleton
import proofs.«419699_j29669634081275_3_alg».proof.Proof.Gen.KernelIdeal.Launch
import proofs.«419699_j29669634081275_3_alg».proof.Proof.Gen.KernelIdeal.Points
import proofs.«419699_j29669634081275_3_alg».proof.Proof.Gen.KernelIdeal.Frame
import proofs.«419699_j29669634081275_3_alg».proof.Proof.Gen.ReferenceIdeal
import proofs.«419699_j29669634081275_3_alg».proof.Proof.Gen.ReferenceIdeal.Run
import proofs.«419699_j29669634081275_3_alg».proof.Proof.Gen.ReferenceIdeal.Read
import proofs.«419699_j29669634081275_3_alg».proof.Proof.Gen.Pre_finite_inputs
import proofs.«419699_j29669634081275_3_alg».proof.Proof.Bridge
import Idealize.ShloMosaic.Adequacy
import Idealize.ShloMosaic.Init

noncomputable section

namespace Cert.Proof

open Idealize.ShloMosaic Idealize.SL.Sem

/-- The word-level kernel terminates without fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the four arguments, the kernel ends with its result array at the reshaped tile-by-tile
    product and the reference with its at the direct contraction: the same function of the arguments. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v19_eq (F := Ideal) _ _ _ _).trans ?_
  refine (Cert.Bridge.reference_eq _ _ _ _).trans ?_
  show _ = Cert.KernelIdeal.RunValue.result m c
  unfold Cert.KernelIdeal.RunValue.result
  rw [Cert.KernelIdeal.RunValue.xArr_eq m c, Cert.KernelIdeal.RunValue.wArr_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
